-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x1 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x512 .f32) (main_arg1 : FVec F S100000x512 .f32) (main_arg2 : FVec F S512x256 .f32) (main_arg3 : FVec F S256 .f32) (main_arg4 : FVec F S256x1 .f32) (main_arg5 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S100000x512 : Shape := ⟨2, ![100000, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S1x1 : Shape := ⟨2, ![1, 1]⟩
abbrev S1000x512 : Shape := ⟨2, ![1000, 512]⟩
abbrev S1000x256 : Shape := ⟨2, ![1000, 256]⟩
abbrev S1000x1 : Shape := ⟨2, ![1000, 1]⟩

abbrev nBuf : Space → Nat
  | .hbm => 9
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S100000x512, .f32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S1x256, .f32⟩
  | .hbm, ⟨7, _⟩ => ⟨S1x1, .f32⟩
  | .hbm, ⟨8, _⟩ => ⟨S100000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x256, .f32⟩
  | .local _ .vmem, ⟨5, _⟩ => ⟨S1x256, .f32⟩
  | .local _ .vmem, ⟨6, _⟩ => ⟨S256x1, .f32⟩
  | .local _ .vmem, ⟨7, _⟩ => ⟨S1x1, .f32⟩
  | .local _ .vmem, ⟨8, _⟩ => ⟨S1000x512, .f32⟩
  | .local _ .vmem, ⟨9, _⟩ => ⟨S1000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256_S1x256 : S256.ShapeCasts S1x256
  shapeCasts_S1_S1x1 : S1.ShapeCasts S1x1
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1000x512_S1000x512_0_0 : ∀ a, (![0, 0] : Fin 2 → Nat) a + S1000x512.size a ≤ S1000x512.size a
  h_S1000x512 : 0 < S1000x512.numel
  broadcasts_S1x256_S1000x256 : S1x256.Broadcasts S1000x256
  broadcasts_S1x1_S1000x1 : S1x1.Broadcasts S1000x1
  broadcasts_S1000x1_S1000x512 : S1000x1.Broadcasts S1000x512
  dot_S1000x512_S512x256_S1000x256_1_0_0_1_n_n_wf : DotDims.WF S1000x512 S512x256 S1000x256 [1] [0] [0] [1] [] []
  dot_S1000x256_S256x1_S1000x1_1_0_0_1_n_n_wf : DotDims.WF S1000x256 S256x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S100000x512.size a
  hwx0_1 : ∀ i : grid0.Coords, EltTy.bits .f32 = 32 ∨ (Rect.block (s := S100000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x512.size a ≤ S100000x512.size a
  hwx0_6 : ∀ i : grid0.Coords, EltTy.bits .f32 = 32 ∨ (Rect.block (s := S100000x512) S1000x512.size (cc0_transform_6 i) (hinb0_6 i)).WholeWords (EltTy.packing .f32)

variable [Facts₀]

def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def dot_S1000x256_S256x1_S1000x1_1_0_0_1_n_n : DotDims S1000x256 S256x1 S1000x1 where
  lhsContracting := [1]
  rhsContracting := [0]
  lhsNonContracting := [0]
  rhsNonContracting := [1]
  lhsBatch := []
  rhsBatch := []
  wf := dot_S1000x256_S256x1_S1000x1_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1000x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S100000x256 : Shape := ⟨2, ![100000, 256]⟩
abbrev S1x256 : Shape := ⟨2, ![1, 256]⟩
abbrev S_ : Shape := ⟨0, ![]⟩
abbrev S100000x1 : Shape := ⟨2, ![100000, 1]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000x512, .f32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S100000x256, .f32⟩
  | .hbm, ⟨7, _⟩ => ⟨S1x256, .f32⟩
  | .hbm, ⟨8, _⟩ => ⟨S100000x256, .f32⟩
  | .hbm, ⟨9, _⟩ => ⟨S100000x256, .f32⟩
  | .hbm, ⟨10, _⟩ => ⟨S_, .f32⟩
  | .hbm, ⟨11, _⟩ => ⟨S100000x256, .f32⟩
  | .hbm, ⟨12, _⟩ => ⟨S100000x256, .f32⟩
  | .hbm, ⟨13, _⟩ => ⟨S100000x1, .f32⟩
  | .hbm, ⟨14, _⟩ => ⟨S1x1, .f32⟩
  | .hbm, ⟨15, _⟩ => ⟨S100000x1, .f32⟩
  | .hbm, ⟨16, _⟩ => ⟨S100000x1, .f32⟩
  | .hbm, ⟨17, _⟩ => ⟨S100000x256, .f32⟩
  | .hbm, ⟨18, _⟩ => ⟨S1x256, .f32⟩
  | .hbm, ⟨19, _⟩ => ⟨S100000x256, .f32⟩
  | .hbm, ⟨20, _⟩ => ⟨S100000x256, .f32⟩
  | .hbm, ⟨21, _⟩ => ⟨S_, .f32⟩
  | .hbm, ⟨22, _⟩ => ⟨S100000x256, .f32⟩
  | .hbm, ⟨23, _⟩ => ⟨S100000x256, .f32⟩
  | .hbm, ⟨24, _⟩ => ⟨S100000x1, .f32⟩
  | .hbm, ⟨25, _⟩ => ⟨S1x1, .f32⟩
  | .hbm, ⟨26, _⟩ => ⟨S100000x1, .f32⟩
  | .hbm, ⟨27, _⟩ => ⟨S100000x1, .f32⟩
  | .hbm, ⟨28, _⟩ => ⟨S100000x1, .f32⟩
  | .hbm, ⟨29, _⟩ => ⟨S100000x1, .f32⟩
  | .hbm, ⟨30, _⟩ => ⟨S100000x1, .f32⟩
  | .hbm, ⟨31, _⟩ => ⟨S100000x1, .f32⟩
  | .hbm, ⟨32, _⟩ => ⟨S100000x1, .f32⟩
  | .hbm, ⟨33, _⟩ => ⟨S100000x512, .f32⟩
  | .hbm, ⟨34, _⟩ => ⟨S100000x512, .f32⟩
  | .hbm, ⟨35, _⟩ => ⟨S100000x512, .f32⟩
  | .hbm, ⟨36, _⟩ => ⟨S100000x512, .f32⟩
  | .hbm, ⟨37, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call1_cst : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S100000x1_S100000x512_0_1 : S100000x1.BroadcastsInDim S100000x512 (![0, 1] : Fin 2 → Fin S100000x512.rank)
  dot_S100000x512_S512x256_S100000x256_1_0_0_1_n_n_wf : DotDims.WF S100000x512 S512x256 S100000x256 [1] [0] [0] [1] [] []
  dot_S100000x256_S256x1_S100000x1_1_0_0_1_n_n_wf : DotDims.WF S100000x256 S256x1 S100000x1 [1] [0] [0] [1] [] []

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.Reference.lean ====
import proofs.«160174_j2757369004055_1_alg».proof.Proof.Gen.ReferenceIdeal.Run
import Idealize.ShloMosaic.PureOps.Ideal

noncomputable section

/-! # The gated mixture as one function of its six arrays

For `z₁, z₂` of 100000 rows and 512 columns, a shared two-layer scorer gives each row a number
`s(z)_r = Σ_k max(Σ_j z_{r,j} · W1_{j,k} + b1_k, 0) · W2_{k,0} + b2_0`; with `x = s(z₁)`, `y = s(z₂)` the result is
`e^{x_r} / (e^{x_r} + e^{y_r}) · z₁_{r,q} + e^{y_r} / (e^{x_r} + e^{y_r}) · z₂_{r,q}`. Written here as the host's own
operations on whole arrays over the extended reals, in three steps (hidden layer, score, mixture), so that the
program's result is this function of its arguments by unfolding. -/

namespace Cert.Gated

open Idealize.ShloMosaic Idealize.ShloMosaic.TcCoe Idealize.SL.Sem
open Cert.ReferenceIdeal Cert.ReferenceIdeal.Gen

/-- The hidden layer `max(z · W1 + b1, 0)`, the bias row laid under every row. -/
def hidden (z : FVec Ideal S100000x512 .f32) (W1 : FVec Ideal S512x256 .f32) (b1 : FVec Ideal S256 .f32) :
    FVec Ideal S100000x256 .f32 :=
  maximumf
    (addf (Host.dotGeneral dot_S100000x512_S512x256_S100000x256_1_0_0_1_n_n none z W1)
      (broadcastInDim S100000x256 ![0, 1] bcast_S1x256_S100000x256_0_1 (broadcastInDim S1x256 ![1] bcast_S256_S1x256_1 b1)))
    (broadcastInDim S100000x256 ![] bcast_S_S100000x256 (constant S_ .f32 0x00000000#32))

/-- The score column `hidden · W2 + b2`. -/
def score (z : FVec Ideal S100000x512 .f32) (W1 : FVec Ideal S512x256 .f32) (b1 : FVec Ideal S256 .f32)
    (W2 : FVec Ideal S256x1 .f32) (b2 : FVec Ideal S1 .f32) : FVec Ideal S100000x1 .f32 :=
  addf (Host.dotGeneral dot_S100000x256_S256x1_S100000x1_1_0_0_1_n_n none (hidden z W1 b1) W2)
    (broadcastInDim S100000x1 ![0, 1] bcast_S1x1_S100000x1_0_1 (broadcastInDim S1x1 ![1] bcast_S1_S1x1_1 b2))

/-- The mixture: each row of `z₁` and of `z₂` weighted by its normalised exponential score. -/
def mix (z1 z2 : FVec Ideal S100000x512 .f32) (W1 : FVec Ideal S512x256 .f32) (b1 : FVec Ideal S256 .f32)
    (W2 : FVec Ideal S256x1 .f32) (b2 : FVec Ideal S1 .f32) : FVec Ideal S100000x512 .f32 :=
  addf
    (mulf (broadcastInDim S100000x512 ![0, 1] bcast_S100000x1_S100000x512_0_1
        (Host.divf (Host.exp (score z1 W1 b1 W2 b2)) (addf (Host.exp (score z1 W1 b1 W2 b2)) (Host.exp (score z2 W1 b1 W2 b2))))) z1)
    (mulf (broadcastInDim S100000x512 ![0, 1] bcast_S100000x1_S100000x512_0_1
        (Host.divf (Host.exp (score z2 W1 b1 W2 b2)) (addf (Host.exp (score z1 W1 b1 W2 b2)) (Host.exp (score z2 W1 b1 W2 b2))))) z2)

/-- The program's result term is `mix` of its six argument arrays. -/
theorem res_eq (m : (ℓ : Loc nD τ sig) → Buf (Elt Ideal) ℓ) (c : Dev nD) :
    Cert.ReferenceIdeal.Value.res_out0 (F := Ideal) m c
      = mix (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  show Cert.ReferenceIdeal.Value.res_main_v27 (F := Ideal) m c = _
  unfold Cert.ReferenceIdeal.Value.res_main_v27 mix score hidden
  rfl

end Cert.Gated

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibRowBlock.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value
import proofs.«160174_j2757369004055_1_alg».proof.Proof.LibPlainDot

noncomputable section

open scoped BigOperators

/-! # Row blocks of two-axis arrays

An array of `M = T · R` rows cut into `T` blocks of `R` rows (`Layout.block … 0 T t`: rows `t·R … t·R + R − 1`).
Every operation that works row by row commutes with taking a row block: the block of the result is the
operation applied to the blocks. Stated here for the operations of a dense layer: a product with a matrix
shared by all rows, a concatenation along the columns, a column slice, a bias row added to every row, a
constant, and the pointwise operations. With these, a computation on one block of rows is read as the
block of the same computation on the whole array. -/

namespace Cert.RowBlock

open Idealize.ShloMosaic Idealize.ShloMosaic.ValueIdx Idealize.ShloMosaic.Layout

variable {R M T : ℕ} {α : Type}

/-- Where entry `(r, q)` of block `t` lies in the whole array: row `t·R + r`, column `q`. -/
theorem idx_rows {N : ℕ} (hN : Tiles ⟨2, ![R, N]⟩ ⟨2, ![M, N]⟩ 0 T) (t : Fin T) (y : (⟨2, ![R, N]⟩ : Shape).Idx) :
    (hN.idx t y 0).val = t.val * R + (y 0).val ∧ (hN.idx t y 1).val = (y 1).val := ⟨rfl, rfl⟩

/-- The unit word is the real number one. -/
theorem ofBits_one : Ideal.ofBits .f32 0x3F800000#32 = 1 := by
  simp [Ideal.ofBits, Ideal.ieee, -EReal.coe_mul]; norm_num

/-! ## A product with a shared matrix -/

/-- Rows `t·R …` of `X · W` are (rows `t·R …` of `X`) `· W`: entry `(r, c)` of either is
    `∑ k, X (t·R + r, k) · W (k, c)`. The block's product is a matrix-unit product into the zero accumulator,
    the whole array's a host product; on the extended reals both are that sum. -/
theorem dot_rows {K N : ℕ} {φ₁ φ₂ : FTy}
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (block ⟨2, ![R, K]⟩ ⟨2, ![M, K]⟩ 0 T t X hK) W (constant ⟨2, ![R, N]⟩ .f32 0x00000000#32)
      = block ⟨2, ![R, N]⟩ ⟨2, ![M, N]⟩ 0 T t (Host.dotGeneral d₂ p₂ X W) hN := by
  funext y
  refine (Cert.PlainDot.matmul_zero_apply d₁ hd₁ p₁ _ W y).trans ?_
  refine Eq.trans ?_ (Cert.PlainDot.dotGeneral_apply d₂ hd₂ p₂ .single X W (hN.idx t y)).symm
  refine Finset.sum_congr rfl fun k _ => ?_
  have e1 : hK.idx t (ix2 (y 0) k) = ix2 (hN.idx t y 0) k := by
    funext a
    match a with
    | ⟨0, _⟩ => exact Fin.ext rfl
    | ⟨1, _⟩ => exact Fin.ext rfl
  have e2 : (ix2 k (y 1) : (⟨2, ![K, N]⟩ : Shape).Idx) = ix2 k (hN.idx t y 1) := by
    funext a
    match a with
    | ⟨0, _⟩ => exact Fin.ext rfl
    | ⟨1, _⟩ => exact Fin.ext rfl
  rw [block_apply, e1, e2]
  rfl

/-- The same with both operands first rounded to a narrower format, which on the extended reals changes nothing. -/
theorem dot_rows_trunc {K N : ℕ} {φ₁ φ₂ ψ₁ ψ₂ : FTy} (h₁ : ψ₁.bits < φ₁.bits) (h₂ : ψ₂.bits < φ₂.bits)
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (truncf ψ₁ (block ⟨2, ![R, K]⟩ ⟨2, ![M, K]⟩ 0 T t X hK) h₁) (truncf ψ₂ W h₂) (constant ⟨2, ![R, N]⟩ .f32 0x00000000#32)
      = block ⟨2, ![R, N]⟩ ⟨2, ![M, N]⟩ 0 T t (Host.dotGeneral d₂ p₂ X W) hN :=
  dot_rows (φ₁ := φ₁) (φ₂ := φ₂) d₁ hd₁ d₂ hd₂ hK hN p₁ p₂ t X W

/-! ## Pointwise operations -/

section Pointwise
variable {N : ℕ} {φ : FTy} (hN : Tiles ⟨2, ![R, N]⟩ ⟨2, ![M, N]⟩ 0 T) (t : Fin T)
  (X Y : FVec Ideal ⟨2, ![M, N]⟩ φ)

theorem addf_rows : addf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (addf X Y) hN := rfl
theorem subf_rows : subf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (subf X Y) hN := rfl
theorem mulf_rows : mulf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (mulf X Y) hN := rfl
theorem maximumf_rows : maximumf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (maximumf X Y) hN := rfl
/-- The kernel's hyperbolic tangent and the host's are one function on the extended reals. -/
theorem tanh_rows : tanh (block ⟨2, ![R, N]⟩ ⟨2, ![M, N]⟩ 0 T t X hN)
    = block ⟨2, ![R, N]⟩ ⟨2, ![M, N]⟩ 0 T t (Host.tanh X) hN := rfl
/-- The logistic function is `1 / (1 + e^(−x))`, which the host spells out with the unit word for `1`. -/
theorem logistic_rows (hb : (⟨0, ![]⟩ : Shape).BroadcastsInDim ⟨2, ![M, N]⟩ (![] : Fin 0 → Fin 2)) :
    logistic (block ⟨2, ![R, N]⟩ ⟨2, ![M, N]⟩ 0 T t (X : FVec Ideal ⟨2, ![M, N]⟩ .f32) hN)
    = block ⟨2, ![R, N]⟩ ⟨2, ![M, N]⟩ 0 T t
        (Host.divf (broadcastInDim ⟨2, ![M, N]⟩ ![] hb (constant (F := Ideal) ⟨0, ![]⟩ .f32 0x3F800000#32))
          (addf (broadcastInDim ⟨2, ![M, N]⟩ ![] hb (constant (F := Ideal) ⟨0, ![]⟩ .f32 0x3F800000#32)) (Host.exp (Host.negf X)))) hN := by
  funext y
  show FloatOps.logistic (X (hN.idx t y))
    = FloatOps.hostDivf (Ideal.ofBits .f32 0x3F800000#32)
        (FloatOps.addf (Ideal.ofBits .f32 0x3F800000#32) (FloatOps.hostUnary .exp (FloatOps.hostNegf (X (hN.idx t y)))))
  rw [ofBits_one]
  rfl
end Pointwise

/-! ## Constants, bias rows, column slices, concatenation along the columns -/

/-- A constant array's row block is the constant block. -/
theorem splat_rows {N : ℕ} (hN : Tiles ⟨2, ![R, N]⟩ ⟨2, ![M, N]⟩ 0 T) (t : Fin T)
    (hb : (⟨0, ![]⟩ : Shape).BroadcastsInDim ⟨2, ![M, N]⟩ (![] : Fin 0 → Fin 2)) (w : BitVec 32) :
    broadcast ⟨2, ![R, N]⟩ (Scalar.ofBits (F := Ideal) .f32 w)
      = block ⟨2, ![R, N]⟩ ⟨2, ![M, N]⟩ 0 T t (broadcastInDim ⟨2, ![M, N]⟩ ![] hb (constant (F := Ideal) ⟨0, ![]⟩ .f32 w)) hN := by
  funext y
  rfl

/-- A bias row laid under every row: the block sees the same row. -/
theorem bias_rows {N : ℕ} (hN : Tiles ⟨2, ![R, N]⟩ ⟨2, ![M, N]⟩ 0 T) (t : Fin T)
    (hc : (⟨1, ![N]⟩ : Shape).ShapeCasts ⟨2, ![1, N]⟩) (hbt : (⟨2, ![1, N]⟩ : Shape).Broadcasts ⟨2, ![R, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) :
    broadcastTo ⟨2, ![R, N]⟩ (shapeCast ⟨2, ![1, N]⟩ b hc) hbt
      = block ⟨2, ![R, N]⟩ ⟨2, ![M, N]⟩ 0 T t (broadcastInDim ⟨2, ![M, N]⟩ ![0, 1] h2 (broadcastInDim ⟨2, ![1, N]⟩ ![1] h1 b)) hN := by
  funext y
  obtain ⟨p, q, rfl⟩ : ∃ (p : Fin R) (q : Fin N), y = ix2 p q := ⟨y 0, y 1, eq_ix2 y⟩
  rw [broadcastTo_1b_ab_apply, shapeCast_a_1a_apply, block_apply]
  refine Eq.symm ?_
  refine (broadcastInDim_apply ![0, 1] h2 _ (hN.idx t (ix2 p q)) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- Columns `o … o + N' − 1`: of the block, or the block of those columns. -/
theorem slice_rows {N N' : ℕ} (o : ℕ) (hN : Tiles ⟨2, ![R, N]⟩ ⟨2, ![M, N]⟩ 0 T) (hN' : Tiles ⟨2, ![R, N']⟩ ⟨2, ![M, N']⟩ 0 T) (t : Fin T)
    (hs : (⟨2, ![R, N]⟩ : Shape).Slices ![0, o] ⟨2, ![R, N']⟩) (hs' : (⟨2, ![M, N]⟩ : Shape).Slices ![0, o] ⟨2, ![M, N']⟩)
    (X : (⟨2, ![M, N]⟩ : Shape).Idx → α) :
    extractStridedSlice ⟨2, ![R, N']⟩ ![0, o] (block ⟨2, ![R, N]⟩ ⟨2, ![M, N]⟩ 0 T t X hN) hs
      = block ⟨2, ![R, N']⟩ ⟨2, ![M, N']⟩ 0 T t (extractStridedSlice ⟨2, ![M, N']⟩ ![0, o] X hs') hN' := by
  funext y
  show X _ = X _
  congr 1
  funext a
  match a with
  | ⟨0, _⟩ =>
    apply Fin.ext
    show t.val * R + (0 + (y 0).val) = 0 + (t.val * R + (y 0).val)
    omega
  | ⟨1, _⟩ => exact Fin.ext rfl

/-- Two arrays side by side: the block of the pair is the pair of the blocks. -/
theorem concat2_rows {N₁ N₂ N : ℕ}
    (h₁ : Tiles ⟨2, ![R, N₁]⟩ ⟨2, ![M, N₁]⟩ 0 T) (h₂ : Tiles ⟨2, ![R, N₂]⟩ ⟨2, ![M, N₂]⟩ 0 T) (hN : Tiles ⟨2, ![R, N]⟩ ⟨2, ![M, N]⟩ 0 T)
    (t : Fin T)
    (hc : Shape.Concatenates [(⟨2, ![R, N₁]⟩ : Shape), ⟨2, ![R, N₂]⟩] ⟨2, ![R, N]⟩ 1)
    (hc' : Shape.Concatenates [(⟨2, ![M, N₁]⟩ : Shape), ⟨2, ![M, N₂]⟩] ⟨2, ![M, N]⟩ 1)
    (A : (⟨2, ![M, N₁]⟩ : Shape).Idx → α) (B : (⟨2, ![M, N₂]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc
      = block ⟨2, ![R, N]⟩ ⟨2, ![M, N]⟩ 0 T t (concatenate ⟨2, ![M, N]⟩ 1 [⟨⟨2, ![M, N₁]⟩, A⟩, ⟨⟨2, ![M, N₂]⟩, B⟩] hc') hN := by
  funext y
  obtain ⟨p, q, rfl⟩ : ∃ (p : Fin R) (q : Fin N), y = ix2 p q := ⟨y 0, y 1, eq_ix2 y⟩
  have hsum : N₁ + (N₂ + (0)) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 0 (by show 0 < 2; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 0 (by show 0 < 2; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 1 (by show 1 < 2; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 1 (by show 1 < 2; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb

/-- Four arrays side by side. -/
theorem concat4_rows {N₁ N₂ N₃ N₄ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (h₄ : Tiles ⟨2, ![R, N₄]⟩ ⟨2, ![M, N₄]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩, ⟨2, ![R, N₄]⟩] ⟨2, ![R, N]⟩ 1)
    (hc' : Shape.Concatenates [(⟨2, ![M, N₁]⟩ : Shape), ⟨2, ![M, N₂]⟩, ⟨2, ![M, N₃]⟩, ⟨2, ![M, N₄]⟩] ⟨2, ![M, N]⟩ 1)
    (A : (⟨2, ![M, N₁]⟩ : Shape).Idx → α) (B : (⟨2, ![M, N₂]⟩ : Shape).Idx → α)
    (C : (⟨2, ![M, N₃]⟩ : Shape).Idx → α) (D : (⟨2, ![M, N₄]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩,
        ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc
      = block ⟨2, ![R, N]⟩ ⟨2, ![M, N]⟩ 0 T t
          (concatenate ⟨2, ![M, N]⟩ 1 [⟨⟨2, ![M, N₁]⟩, A⟩, ⟨⟨2, ![M, N₂]⟩, B⟩, ⟨⟨2, ![M, N₃]⟩, C⟩, ⟨⟨2, ![M, N₄]⟩, D⟩] hc') hN := by
  funext y
  obtain ⟨p, q, rfl⟩ : ∃ (p : Fin R) (q : Fin N), y = ix2 p q := ⟨y 0, y 1, eq_ix2 y⟩
  have hsum : N₁ + (N₂ + (N₃ + (N₄ + (0)))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 0 (by show 0 < 4; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 0 (by show 0 < 4; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 1 (by show 1 < 4; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 1 (by show 1 < 4; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  by_cases hc2 : q.val < N₁ + N₂ + N₃
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 2 (by show 2 < 4; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 2 (by show 2 < 4; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb
  · have c3 : q.val - (N₁ + N₂ + N₃) < N₄ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 3 (by show 3 < 4; omega) ⟨2, ![R, N₄]⟩ _ rfl rfl (N₁ + N₂ + N₃) (by simp [List.take, List.map, List.sum_cons]; try omega) (ix2 p ⟨q.val - (N₁ + N₂ + N₃), c3⟩) (fun b hb => ?_) (by show N₁ + N₂ + N₃ + (q.val - (N₁ + N₂ + N₃)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 3 (by show 3 < 4; omega) ⟨2, ![M, N₄]⟩ D rfl rfl (N₁ + N₂ + N₃) (by simp [List.take, List.map, List.sum_cons]; try omega) (h₄.idx t (ix2 p ⟨q.val - (N₁ + N₂ + N₃), c3⟩)) (fun b hb => ?_) (by show N₁ + N₂ + N₃ + (q.val - (N₁ + N₂ + N₃)) = q.val; omega))
    match b with
    | ⟨0, _⟩ => rfl
    | ⟨1, _⟩ => exact absurd rfl hb

end Cert.RowBlock

end
-- ==== Proof.LibRowBlockGate.lean ====
import Idealize.ShloMosaic.PureOps.Ideal.Laws
import Idealize.ShloMosaic.Lib.ValueIdx
import Idealize.ShloMosaic.Lib.Layout
import Idealize.ShloMosaic.Lib.Pipeline.Value
import proofs.«160174_j2757369004055_1_alg».proof.Proof.LibRowBlock

noncomputable section

/-! # Row blocks: the exponential, a quotient, and a column laid across the columns

Three more operations that work row by row and so commute with taking a block of rows (rows
`t·R … t·R + R − 1` of an array of `M = T·R` rows): the exponential and the quotient, entry by entry, and a column
`[M, 1]` copied across `N` columns, where entry `(r, q)` of the result is the column's entry in row `r`. On the
extended reals the on-chip exponential and quotient are the host's. -/

namespace Cert.RowBlock

open Idealize.ShloMosaic Idealize.ShloMosaic.ValueIdx Idealize.ShloMosaic.Layout

variable {R M T : ℕ} {α : Type}

section Pointwise
variable {N : ℕ} {φ : FTy} (hN : Tiles ⟨2, ![R, N]⟩ ⟨2, ![M, N]⟩ 0 T) (t : Fin T)
  (X Y : FVec Ideal ⟨2, ![M, N]⟩ φ)

/-- `e^x` of a block of rows is the block of `e^x`. -/
theorem exp_rows : exp (block ⟨2, ![R, N]⟩ ⟨2, ![M, N]⟩ 0 T t X hN)
    = block ⟨2, ![R, N]⟩ ⟨2, ![M, N]⟩ 0 T t (Host.exp X) hN := rfl

/-- `x / y` of two blocks of rows is the block of `x / y`. -/
theorem divf_rows : divf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (Host.divf X Y) hN := rfl
end Pointwise

/-- A column copied across `N` columns: entry `(r, q)` of the block is the column's entry in row `t·R + r`, which
    is entry `(r, 0)` of the column's own block. -/
theorem column_rows {N : ℕ} (h1 : Tiles ⟨2, ![R, 1]⟩ ⟨2, ![M, 1]⟩ 0 T) (hN : Tiles ⟨2, ![R, N]⟩ ⟨2, ![M, N]⟩ 0 T) (t : Fin T)
    (hbt : (⟨2, ![R, 1]⟩ : Shape).Broadcasts ⟨2, ![R, N]⟩)
    (hb : (⟨2, ![M, 1]⟩ : Shape).BroadcastsInDim ⟨2, ![M, N]⟩ (![0, 1] : Fin 2 → Fin 2))
    (col : (⟨2, ![M, 1]⟩ : Shape).Idx → α) :
    broadcastTo ⟨2, ![R, N]⟩ (block ⟨2, ![R, 1]⟩ ⟨2, ![M, 1]⟩ 0 T t col h1) hbt
      = block ⟨2, ![R, N]⟩ ⟨2, ![M, N]⟩ 0 T t (broadcastInDim ⟨2, ![M, N]⟩ ![0, 1] hb col) hN := by
  funext y
  obtain ⟨p, q, rfl⟩ : ∃ (p : Fin R) (q : Fin N), y = ix2 p q := ⟨y 0, y 1, eq_ix2 y⟩
  have hl : broadcastTo ⟨2, ![R, N]⟩ (block ⟨2, ![R, 1]⟩ ⟨2, ![M, 1]⟩ 0 T t col h1) hbt (ix2 p q)
      = block ⟨2, ![R, 1]⟩ ⟨2, ![M, 1]⟩ 0 T t col h1 (ix2 p (0 : Fin 1)) := by
    refine broadcastTo_apply _ hbt (ix2 p q) (ix2 p (0 : Fin 1)) fun a => ?_
    match a with
    | ⟨0, _⟩ =>
      show p.val = if R = 1 then 0 else p.val
      split
      · have := p.isLt; omega
      · rfl
    | ⟨1, _⟩ => rfl
  rw [hl, block_apply, block_apply]
  refine Eq.symm (broadcastInDim_apply ![0, 1] hb col (hN.idx t (ix2 p q)) (h1.idx t (ix2 p (0 : Fin 1))) fun a => ?_)
  match a with
  | ⟨0, _⟩ =>
    show t.val * R + p.val = if M = 1 then 0 else t.val * R + p.val
    split
    · rename_i hM
      have hlt : t.val * R + p.val < M := (hN.idx t (ix2 p q) 0).isLt
      omega
    · rfl
  | ⟨1, _⟩ => rfl

end Cert.RowBlock

end
-- ==== Proof.BlockScore.lean ====
import proofs.«160174_j2757369004055_1_alg».proof.Proof.Gen.KernelIdeal.Skeleton
import proofs.«160174_j2757369004055_1_alg».proof.Proof.LibRowBlockGate
import proofs.«160174_j2757369004055_1_alg».proof.Proof.Reference

noncomputable section

/-! # One block of 1000 rows

The kernel works on 1000 rows at a time: from rows `1000·t … 1000·t + 999` of `z₁` and `z₂` and the whole of the
weights it computes the same rows of the mixture. Every step acts row by row — a product with a matrix shared by all
rows, a bias row under every row, a maximum with zero, the exponential, a quotient, a column copied across the columns,
products and sums entry by entry — and rounding to a narrower float format changes nothing on the extended reals. So
the body's value on block `t` of the inputs is block `t` of `mix` of the whole arrays. -/

namespace Cert.Gated

open Idealize.ShloMosaic Idealize.ShloMosaic.TcCoe Idealize.SL.Sem Idealize.ShloMosaic.Layout
open Cert.KernelIdeal Cert.KernelIdeal.Gen

/-- 100 blocks of 1000 rows make the 100000 rows, at each of the three widths that occur. -/
theorem rows512 : Tiles S1000x512 S100000x512 0 100 := by decide
theorem rows256 : Tiles S1000x256 Cert.ReferenceIdeal.S100000x256 0 100 := by decide
theorem rows1 : Tiles S1000x1 Cert.ReferenceIdeal.S100000x1 0 100 := by decide

/-- The scorer on one block of rows as the body spells it: both products into a zero accumulator with operands rounded
    to the narrow format, the bias rows given as `[1, 256]` and `[1, 1]` arrays. -/
def blockScore (z : FVec Ideal S1000x512 .f32) (W1 : FVec Ideal S512x256 .f32) (W2 : FVec Ideal S256x1 .f32)
    (b1r : FVec Ideal S1x256 .f32) (b2r : FVec Ideal S1x1 .f32) : FVec Ideal S1000x1 .f32 :=
  addf
    (matmul dot_S1000x256_S256x1_S1000x1_1_0_0_1_n_n none
      (truncf .bf16
        (maximumf
          (addf
            (matmul dot_S1000x512_S512x256_S1000x256_1_0_0_1_n_n none (truncf .bf16 z bitsLt_bf16_f32)
              (truncf .bf16 W1 bitsLt_bf16_f32) (constant (F := Ideal) S1000x256 .f32 0x00000000#32))
            (broadcastTo S1000x256 (shapeCast S1x256 b1r shapeCasts_S1x256_S1x256) broadcasts_S1x256_S1000x256))
          (broadcast S1000x256 (Scalar.ofBits (F := Ideal) .f32 0x00000000#32)))
        bitsLt_bf16_f32)
      (truncf .bf16 W2 bitsLt_bf16_f32) (constant (F := Ideal) S1000x1 .f32 0x00000000#32))
    (broadcastTo S1000x1 (shapeCast S1x1 b2r shapeCasts_S1x1_S1x1) broadcasts_S1x1_S1000x1)

/-- The body's value is the mixture of its two input blocks by their block scores. -/
theorem pay_eq (x2 : Vec Ideal S512x256 .f32) (x4 : Vec Ideal S256x1 .f32) (x3 : Vec Ideal S1x256 .f32) (x5 : Vec Ideal S1x1 .f32)
    (x0 x1 : Vec Ideal S1000x512 .f32) :
    k0_pay1 (F := Ideal) x2 x4 x3 x5 x0 x1
      = addf
          (mulf (broadcastTo S1000x512
              (divf (exp (blockScore x0 x2 x4 x3 x5)) (addf (exp (blockScore x0 x2 x4 x3 x5)) (exp (blockScore x1 x2 x4 x3 x5))))
              broadcasts_S1000x1_S1000x512) x0)
          (mulf (broadcastTo S1000x512
              (divf (exp (blockScore x1 x2 x4 x3 x5)) (addf (exp (blockScore x0 x2 x4 x3 x5)) (exp (blockScore x1 x2 x4 x3 x5))))
              broadcasts_S1000x1_S1000x512) x1) := rfl

/-- The block score of rows `1000·t …` of `z` is rows `1000·t …` of the score column of `z`. -/
theorem blockScore_rows (t : Fin 100) (z : FVec Ideal S100000x512 .f32) (W1 : FVec Ideal S512x256 .f32) (b1 : FVec Ideal S256 .f32)
    (W2 : FVec Ideal S256x1 .f32) (b2 : FVec Ideal S1 .f32) :
    blockScore (block S1000x512 S100000x512 0 100 t z rows512) W1 W2 (shapeCast S1x256 b1 shapeCasts_S256_S1x256)
        (shapeCast S1x1 b2 shapeCasts_S1_S1x1)
      = block S1000x1 Cert.ReferenceIdeal.S100000x1 0 100 t (score z W1 b1 W2 b2) rows1 := by
  unfold blockScore score hidden
  rw [shapeCast_self, shapeCast_self]
  rw [Cert.RowBlock.dot_rows_trunc bitsLt_bf16_f32 bitsLt_bf16_f32 dot_S1000x512_S512x256_S1000x256_1_0_0_1_n_n rfl
    Cert.ReferenceIdeal.dot_S100000x512_S512x256_S100000x256_1_0_0_1_n_n rfl rows512 rows256 none none t z W1]
  rw [Cert.RowBlock.bias_rows rows256 t shapeCasts_S256_S1x256 broadcasts_S1x256_S1000x256
    Cert.ReferenceIdeal.Gen.bcast_S256_S1x256_1 Cert.ReferenceIdeal.Gen.bcast_S1x256_S100000x256_0_1 b1]
  rw [Cert.RowBlock.splat_rows rows256 t Cert.ReferenceIdeal.Gen.bcast_S_S100000x256 0x00000000#32]
  rw [Cert.RowBlock.addf_rows, Cert.RowBlock.maximumf_rows]
  rw [Cert.RowBlock.dot_rows_trunc bitsLt_bf16_f32 bitsLt_bf16_f32 dot_S1000x256_S256x1_S1000x1_1_0_0_1_n_n rfl
    Cert.ReferenceIdeal.dot_S100000x256_S256x1_S100000x1_1_0_0_1_n_n rfl rows256 rows1 none none t _ W2]
  rw [Cert.RowBlock.bias_rows rows1 t shapeCasts_S1_S1x1 broadcasts_S1x1_S1000x1
    Cert.ReferenceIdeal.Gen.bcast_S1_S1x1_1 Cert.ReferenceIdeal.Gen.bcast_S1x1_S100000x1_0_1 b2]
  rfl

/-- The body on block `t` of the two inputs, the whole weights and the bias rows computes block `t` of the mixture. -/
theorem pay_rows (t : Fin 100) (z1 z2 : FVec Ideal S100000x512 .f32) (W1 : FVec Ideal S512x256 .f32) (b1 : FVec Ideal S256 .f32)
    (W2 : FVec Ideal S256x1 .f32) (b2 : FVec Ideal S1 .f32) :
    k0_pay1 (F := Ideal) W1 W2 (shapeCast S1x256 b1 shapeCasts_S256_S1x256) (shapeCast S1x1 b2 shapeCasts_S1_S1x1)
        (block S1000x512 S100000x512 0 100 t z1 rows512) (block S1000x512 S100000x512 0 100 t z2 rows512)
      = block S1000x512 S100000x512 0 100 t (mix z1 z2 W1 b1 W2 b2) rows512 := by
  rw [pay_eq, blockScore_rows, blockScore_rows]
  rw [Cert.RowBlock.exp_rows, Cert.RowBlock.exp_rows, Cert.RowBlock.addf_rows, Cert.RowBlock.divf_rows, Cert.RowBlock.divf_rows]
  rw [Cert.RowBlock.column_rows rows1 rows512 t broadcasts_S1000x1_S1000x512 Cert.ReferenceIdeal.Gen.bcast_S100000x1_S100000x512_0_1,
    Cert.RowBlock.column_rows rows1 rows512 t broadcasts_S1000x1_S1000x512 Cert.ReferenceIdeal.Gen.bcast_S100000x1_S100000x512_0_1]
  rfl

end Cert.Gated

end
-- ==== Proof.KernelRun.lean ====
import proofs.«160174_j2757369004055_1_alg».proof.Proof.Gen.KernelIdeal.Value
import proofs.«160174_j2757369004055_1_alg».proof.Proof.BlockScore
import Idealize.ShloMosaic.Lib.Pipeline.Value
import Idealize.ShloMosaic.Lib.StableHlo.Run

noncomputable section

/-! # The kernel's result array

The grid has 100 points. At point `t` the windows of `z₁`, `z₂` and of the result hold rows `1000·t … 1000·t + 999`
(block index `(t, 0)`), the windows of the weights and of the two bias rows hold their whole arrays (block index
`(0, 0)`); the bias rows are the bias vectors viewed as `[1, 256]` and `[1, 1]` arrays by the two reshapes before the
call. So what point `t` writes back is block `t` of `mix` of the six arguments, the 100 blocks cover the 100000 rows,
and the result array ends holding `mix` of the arguments. -/

namespace Cert.Gated

open Idealize.ShloMosaic Idealize.ShloMosaic.TcCoe Idealize.SL.Sem Idealize.ShloMosaic.Layout
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem zero_offsets : (![0, 0] : Fin 2 → Nat) = fun _ => 0 := funext fun a => by fin_cases a <;> rfl

theorem points : cfg0.N = 100 := N_0

/-- The seven index maps over the grid: the row-blocked windows sit at block `(t, 0)`, the others at `(0, 0)`. -/
theorem index_maps : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-! ## Each window's block at a point -/

/-- Window 0 at point `t` reads rows `1000·t …` of its array. -/
theorem read0_rows (t : Fin cfg0.N) (A : Vec Ideal S100000x512 .f32) :
    ((cfg0.win 0).blk t).view.read (Elt Ideal) A = block S1000x512 S100000x512 0 100 (t.cast points) A rows512 := by
  obtain ⟨⟨e0, e1⟩, -⟩ := index_maps t
  funext y
  show A (((cfg0.win 0).blk t).view.emb y) = A (rows512.idx (t.cast points) y)
  congr 1
  funext a
  apply Fin.ext
  match a with
  | ⟨0, _⟩ => show win0_0.index t (0 : Fin 2) * 1000 + 1 * (y 0).val = t.val * 1000 + (y 0).val; rw [e0]; omega
  | ⟨1, _⟩ => show win0_0.index t (1 : Fin 2) * 512 + 1 * (y 1).val = (y 1).val; rw [e1]; omega

/-- Window 1 at point `t` reads rows `1000·t …` of its array. -/
theorem read1_rows (t : Fin cfg0.N) (A : Vec Ideal S100000x512 .f32) :
    ((cfg0.win 1).blk t).view.read (Elt Ideal) A = block S1000x512 S100000x512 0 100 (t.cast points) A rows512 := by
  obtain ⟨-, ⟨e0, e1⟩, -⟩ := index_maps t
  funext y
  show A (((cfg0.win 1).blk t).view.emb y) = A (rows512.idx (t.cast points) y)
  congr 1
  funext a
  apply Fin.ext
  match a with
  | ⟨0, _⟩ => show win0_1.index t (0 : Fin 2) * 1000 + 1 * (y 0).val = t.val * 1000 + (y 0).val; rw [e0]; omega
  | ⟨1, _⟩ => show win0_1.index t (1 : Fin 2) * 512 + 1 * (y 1).val = (y 1).val; rw [e1]; omega

/-- The result's window at point `t` reads rows `1000·t …` of its array. -/
theorem read6_rows (t : Fin cfg0.N) (A : Vec Ideal S100000x512 .f32) :
    ((cfg0.win 6).blk t).view.read (Elt Ideal) A = block S1000x512 S100000x512 0 100 (t.cast points) A rows512 := by
  obtain ⟨-, -, -, -, -, -, e0, e1⟩ := index_maps t
  funext y
  show A (((cfg0.win 6).blk t).view.emb y) = A (rows512.idx (t.cast points) y)
  congr 1
  funext a
  apply Fin.ext
  match a with
  | ⟨0, _⟩ => show win0_6.index t (0 : Fin 2) * 1000 + 1 * (y 0).val = t.val * 1000 + (y 0).val; rw [e0]; omega
  | ⟨1, _⟩ => show win0_6.index t (1 : Fin 2) * 512 + 1 * (y 1).val = (y 1).val; rw [e1]; omega

/-- The first layer's weights are read whole at every point. -/
theorem read2_whole (t : Fin cfg0.N) (A : Vec Ideal S512x256 .f32) : ((cfg0.win 2).blk t).view.read (Elt Ideal) A = A := by
  obtain ⟨-, -, ⟨e0, e1⟩, -⟩ := index_maps t
  funext y
  show A (((cfg0.win 2).blk t).view.emb y) = A y
  congr 1
  funext a
  apply Fin.ext
  match a with
  | ⟨0, _⟩ => show win0_2.index t (0 : Fin 2) * 512 + 1 * (y 0).val = (y 0).val; rw [e0]; omega
  | ⟨1, _⟩ => show win0_2.index t (1 : Fin 2) * 256 + 1 * (y 1).val = (y 1).val; rw [e1]; omega

/-- The first bias row is read whole at every point. -/
theorem read3_whole (t : Fin cfg0.N) (A : Vec Ideal S1x256 .f32) : ((cfg0.win 3).blk t).view.read (Elt Ideal) A = A := by
  obtain ⟨-, -, -, ⟨e0, e1⟩, -⟩ := index_maps t
  funext y
  show A (((cfg0.win 3).blk t).view.emb y) = A y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

/-- The second layer's weights are read whole at every point. -/
theorem read4_whole (t : Fin cfg0.N) (A : Vec Ideal S256x1 .f32) : ((cfg0.win 4).blk t).view.read (Elt Ideal) A = A := by
  obtain ⟨-, -, -, -, ⟨e0, e1⟩, -⟩ := index_maps t
  funext y
  show A (((cfg0.win 4).blk t).view.emb y) = A y
  congr 1
  funext a
  apply Fin.ext
  match a with
  | ⟨0, _⟩ => show win0_4.index t (0 : Fin 2) * 256 + 1 * (y 0).val = (y 0).val; rw [e0]; omega
  | ⟨1, _⟩ => show win0_4.index t (1 : Fin 2) * 1 + 1 * (y 1).val = (y 1).val; rw [e1]; omega

/-- The second bias is read whole at every point. -/
theorem read5_whole (t : Fin cfg0.N) (A : Vec Ideal S1x1 .f32) : ((cfg0.win 5).blk t).view.read (Elt Ideal) A = A := by
  obtain ⟨-, -, -, -, -, ⟨e0, e1⟩, -⟩ := index_maps t
  funext y
  show A (((cfg0.win 5).blk t).view.emb y) = A y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 1 + 1 * (y 1).val = (y 1).val; rw [e1]; omega

/-! ## The two bias rows the call is given -/

/-- The first bias row is the bias vector viewed as a `[1, 256]` array. -/
theorem bias1_row (c : Dev nD) :
    (V m c main_v0 : Vec Ideal S1x256 .f32) = shapeCast S1x256 (m ((c : Thread nD τ).loc main_arg3)) shapeCasts_S256_S1x256 := by
  dsimp only [Gen.V, Gen.hostOps0]; after_results; rfl

/-- The second bias row is the one-entry bias vector viewed as a `[1, 1]` array. -/
theorem bias2_row (c : Dev nD) :
    (V m c main_v1 : Vec Ideal S1x1 .f32) = shapeCast S1x1 (m ((c : Thread nD τ).loc main_arg5)) shapeCasts_S1_S1x1 := by
  dsimp only [Gen.V, Gen.hostOps0]; after_results; rfl

/-! ## What a point writes back, and the array after the run -/

/-- The mixture of the six arguments as launched. -/
abbrev result (c : Dev nD) : Vec Ideal S100000x512 .f32 :=
  mix (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The body's value at point `t`, the six blocks named: rows `1000·t …` of the mixture. -/
theorem point_rows (c : Dev nD) (t : Fin cfg0.N) (x0 x1 : Vec Ideal S1000x512 .f32) (x2 : Vec Ideal S512x256 .f32)
    (x3 : Vec Ideal S1x256 .f32) (x4 : Vec Ideal S256x1 .f32) (x5 : Vec Ideal S1x1 .f32)
    (h0 : x0 = block S1000x512 S100000x512 0 100 (t.cast points) (m ((c : Thread nD τ).loc main_arg0)) rows512)
    (h1 : x1 = block S1000x512 S100000x512 0 100 (t.cast points) (m ((c : Thread nD τ).loc main_arg1)) rows512)
    (h2 : x2 = m ((c : Thread nD τ).loc main_arg2))
    (h3 : x3 = shapeCast S1x256 (m ((c : Thread nD τ).loc main_arg3)) shapeCasts_S256_S1x256)
    (h4 : x4 = m ((c : Thread nD τ).loc main_arg4))
    (h5 : x5 = shapeCast S1x1 (m ((c : Thread nD τ).loc main_arg5)) shapeCasts_S1_S1x1) :
    k0_pay1 (F := Ideal) x2 x4 x3 x5 x0 x1 = block S1000x512 S100000x512 0 100 (t.cast points) (result m c) rows512 := by
  subst h0 h1 h2 h3 h4 h5
  exact pay_rows (t.cast points) _ _ _ _ _ _

/-- Point `t` writes back block `t` of the mixture. -/
theorem flushed_eq (c : Dev nD) (t : Fin cfg0.N) :
    (dats m 0 c).flushed 6 t = ((cfg0.win 6).blk t).view.read (Elt Ideal) (result m c) := by
  rw [flushed6, read6_rows]
  unfold out0_6
  rw [View.canon_unit_zero zero_offsets]
  simp only [View.ld_unit_zero (S := S1000x512) zero_offsets, View.ld_unit_zero (S := S512x256) zero_offsets,
    View.ld_unit_zero (S := S256x1) zero_offsets, View.ld_unit_zero (S := S1x256) zero_offsets,
    View.ld_unit_zero (S := S1x1) zero_offsets]
  show k0_pay1 (F := Ideal) (iblk m c 2 t) (iblk m c 4 t) (iblk m c 3 t) (iblk m c 5 t) (iblk m c 0 t) (iblk m c 1 t) = _
  refine point_rows m c t _ _ _ _ _ _ ?_ ?_ ?_ ?_ ?_ ?_
  · exact (read0_rows t _).trans (by rw [V_main_arg0])
  · exact (read1_rows t _).trans (by rw [V_main_arg1])
  · exact (read2_whole t _).trans (V_main_arg2 m c)
  · exact (read3_whole t _).trans (bias1_row m c)
  · exact (read4_whole t _).trans (V_main_arg4 m c)
  · exact (read5_whole t _).trans (bias2_row m c)

/-- An index of the result array is in point `t`'s block iff each coordinate is in the block's range on its axis. -/
theorem mem_blk6 (t : Fin cfg0.N) (i : S100000x512.Idx) :
    i ∈ ((cfg0.win 6).blk t).view.set ↔ ∀ a : Fin 2, win0_6.index t a * S1000x512.size a ≤ (i a).val ∧ (i a).val < win0_6.index t a * S1000x512.size a + S1000x512.size a := by
  show i ∈ ((View.whole main_v2).slice (win0_6.rect t)).set ↔ _
  rw [View.set_slice_whole, Rect.mem_set_unit]
  exact Iff.rfl

/-- Row `r` lies in the block of point `r / 1000`: the 100 blocks cover the array. -/
theorem cover6 (i : S100000x512.Idx) : ∃ t : Fin cfg0.N, (cfg0.win 6).flush t = true ∧ i ∈ ((cfg0.win 6).blk t).view.set := by
  have hi0 : (i 0).val < 100000 := (i 0).isLt
  have hi1 : (i 1).val < 512 := (i 1).isLt
  have ht : (i 0).val / 1000 < cfg0.N := by rw [points]; omega
  obtain ⟨-, -, -, -, -, -, e0, e1⟩ := index_maps ⟨(i 0).val / 1000, ht⟩
  refine ⟨⟨(i 0).val / 1000, ht⟩, flush0_6 _, ?_⟩
  rw [mem_blk6]
  intro a
  match a with
  | ⟨0, _⟩ =>
    show win0_6.index ⟨(i 0).val / 1000, ht⟩ (0 : Fin 2) * 1000 ≤ (i 0).val ∧ (i 0).val < win0_6.index ⟨(i 0).val / 1000, ht⟩ (0 : Fin 2) * 1000 + 1000
    rw [e0]
    show (i 0).val / 1000 * 1000 ≤ (i 0).val ∧ (i 0).val < (i 0).val / 1000 * 1000 + 1000
    omega
  | ⟨1, _⟩ =>
    show win0_6.index ⟨(i 0).val / 1000, ht⟩ (1 : Fin 2) * 512 ≤ (i 1).val ∧ (i 1).val < win0_6.index ⟨(i 0).val / 1000, ht⟩ (1 : Fin 2) * 512 + 512
    rw [e1]
    omega

/-- After the run the result array holds the mixture of the arguments. -/
theorem final6 (c : Dev nD) : (dats m 0 c).arrAt 6 cfg0.N = result m c :=
  (dats m 0 c).arrAt_eq_of_cover 6 (result m c) (fun t _ => flushed_eq m c t) cover6

/-- The kernel's run, read: the result array at `mix` of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2⟩) (run_blocks m ρ)

end Cert.Gated

end
-- ==== Proof.lean ====
/-
  The gated mixture of two arrays by a shared two-layer scorer, on 100000 rows of 512 columns.

  For each row `r` a scorer gives `x_r = Σ_k max(Σ_j z₁_{r,j} · W1_{j,k} + b1_k, 0) · W2_{k,0} + b2_0` and `y_r` the
  same of `z₂`; the result is `e^{x_r} / (e^{x_r} + e^{y_r}) · z₁_{r,q} + e^{y_r} / (e^{x_r} + e^{y_r}) · z₂_{r,q}`. The
  reference computes this on the whole arrays. The kernel computes it 1000 rows at a time over a grid of 100 points,
  with both matrix products into a zero accumulator and their operands first rounded to a narrower float format.

  On the extended reals rounding is the identity, a product into zero is the plain sum of products, and the on-chip
  exponential, quotient and maximum are the host's. Every operation of the scorer and of the mixture acts row by row,
  so it commutes with taking rows `1000·t … 1000·t + 999`: the body's value on block `t` of `z₁` and `z₂` is block `t`
  of the reference's own term `mix` (Proof/BlockScore.lean, over the row-block lemmas of Proof/LibRowBlock.lean and
  Proof/LibRowBlockGate.lean). The 100 blocks are disjoint and cover the rows, so the result array ends holding `mix` of
  the arguments (Proof/KernelRun.lean), which is what the reference's run leaves (Proof/Reference.lean). No law is used
  that needs finite values: both sides are the same composition of the same operations, so the precondition is not
  opened. The three programs' runs end with their arguments unchanged; the idealized kernel is the kernel's own text read
  on the extended reals, no operation rewritten.
-/
import proofs.«160174_j2757369004055_1_alg».proof.Defs
import proofs.«160174_j2757369004055_1_alg».proof.Proof.Gen.Kernel
import proofs.«160174_j2757369004055_1_alg».proof.Proof.Gen.Kernel.Skeleton
import proofs.«160174_j2757369004055_1_alg».proof.Proof.Gen.Kernel.Launch
import proofs.«160174_j2757369004055_1_alg».proof.Proof.Gen.Kernel.Points
import proofs.«160174_j2757369004055_1_alg».proof.Proof.Gen.Kernel.Frame
import proofs.«160174_j2757369004055_1_alg».proof.Proof.Gen.KernelIdeal
import proofs.«160174_j2757369004055_1_alg».proof.Proof.Gen.KernelIdeal.Skeleton
import proofs.«160174_j2757369004055_1_alg».proof.Proof.Gen.KernelIdeal.Launch
import proofs.«160174_j2757369004055_1_alg».proof.Proof.Gen.KernelIdeal.Points
import proofs.«160174_j2757369004055_1_alg».proof.Proof.Gen.KernelIdeal.Frame
import proofs.«160174_j2757369004055_1_alg».proof.Proof.Gen.ReferenceIdeal
import proofs.«160174_j2757369004055_1_alg».proof.Proof.Gen.Pre_finite_inputs
import proofs.«160174_j2757369004055_1_alg».proof.Proof.Gen.KernelIdeal.Value
import proofs.«160174_j2757369004055_1_alg».proof.Proof.Gen.ReferenceIdeal.Run
import proofs.«160174_j2757369004055_1_alg».proof.Proof.Reference
import proofs.«160174_j2757369004055_1_alg».proof.Proof.KernelRun
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the result array at `mix` of those arguments:
    the kernel block by block, the reference by its own operations. -/
theorem algebraic : Cert.algebraic_KernelIdeal_ReferenceIdeal := by
  intro m ρ m' ρ' _ hagree
  refine ⟨fun c => Cert.Gated.result m c, Cert.Gated.run m ρ, ?_⟩
  refine (θ_run Cert.ReferenceIdeal.defs _ _).mono (fun _ h c => ⟨(h c).1.trans ?_, (h c).2⟩)
    (Cert.ReferenceIdeal.Value.run (F := Ideal) m' ρ')
  refine (Cert.Gated.res_eq m' c).trans ?_
  obtain ⟨a0, a1, a2, a3, a4, a5⟩ := hagree c
  rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
